-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x56x56 : Shape := ⟨4, ![32, 512, 56, 56]⟩
abbrev S_ : Shape := ⟨0, ![]⟩

class Facts : Prop where
  bcast_S_S32x512x56x56 : S_.BroadcastsInDim S32x512x56x56 (![] : Fin 0 → Fin S32x512x56x56.rank)
  reducesTo_S32x512x56x56_S_d0_1_2_3 : S32x512x56x56.ReducesTo [0, 1, 2, 3] S_
  h_S_ : 0 < S_.numel

variable [Facts]

def fn {F : FTy → Type} [FloatOps F] (main_arg0 : FVec F S32x512x56x56 .f32) : IVec S_ 1 :=
  let main_v0 : FVec F S32x512x56x56 .f32 := Host.absf main_arg0
  let main_cst : FVec F S_ .f32 := constant S_ .f32 0x7F800000#32
  let main_v1 : FVec F S32x512x56x56 .f32 := broadcastInDim S32x512x56x56 ![] bcast_S_S32x512x56x56 main_cst
  let main_v2 : IVec S32x512x56x56 1 := cmpf .olt main_v0 main_v1
  let main_c : IVec S_ 1 := constantI S_ 1 1#1
  let main_v3 : IVec S_ 1 := (fun x v => Host.reduce IntOp.andi x v reducesTo_S32x512x56x56_S_d0_1_2_3 h_S_) main_v2 main_c
  main_v3
-- ==== Kernel.lean ====
abbrev S32x512x56x56 : Shape := ⟨4, ![32, 512, 56, 56]⟩
abbrev S16384x56x56 : Shape := ⟨3, ![16384, 56, 56]⟩
abbrev S256x56x56 : Shape := ⟨3, ![256, 56, 56]⟩

abbrev nBuf : Space → Nat
  | .hbm => 4
  | .vmem => 4
  | .smem => 0
  | _ => 0

abbrev bufTy : (tb : Table) → Fin (tcTables nBuf tb) → BufTy
  | .hbm, ⟨0, _⟩ => ⟨S32x512x56x56, .f32⟩
  | .hbm, ⟨1, _⟩ => ⟨S16384x56x56, .f32⟩
  | .hbm, ⟨2, _⟩ => ⟨S16384x56x56, .f32⟩
  | .hbm, ⟨3, _⟩ => ⟨S32x512x56x56, .f32⟩
  | .local _ .vmem, ⟨0, _⟩ => ⟨S256x56x56, .f32⟩
  | .local _ .vmem, ⟨1, _⟩ => ⟨S256x56x56, .f32⟩
  | .local _ .vmem, ⟨2, _⟩ => ⟨S256x56x56, .f32⟩
  | .local _ .vmem, ⟨3, _⟩ => ⟨S256x56x56, .f32⟩
  | _, _ => ⟨S32x512x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x56x56 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x56x56 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S32x512x56x56_S16384x56x56 : S32x512x56x56.ShapeCasts S16384x56x56
  inb_S256x56x56_S256x56x56_0_0_0 : ∀ a, (![0, 0, 0] : Fin 3 → Nat) a + S256x56x56.size a ≤ S256x56x56.size a
  h_S256x56x56 : 0 < S256x56x56.numel
  shapeCasts_S256x56x56_S256x56x56 : S256x56x56.ShapeCasts S256x56x56
  shapeCasts_S16384x56x56_S32x512x56x56 : S16384x56x56.ShapeCasts S32x512x56x56
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x56x56.size a ≤ S16384x56x56.size a
  hwx0_0 : ∀ i : grid0.Coords, EltTy.bits .f32 = 32 ∨ (Rect.block (s := S16384x56x56) S256x56x56.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x56x56.size a ≤ S16384x56x56.size a
  hwx0_1 : ∀ i : grid0.Coords, EltTy.bits .f32 = 32 ∨ (Rect.block (s := S16384x56x56) S256x56x56.size (cc0_transform_1 i) (hinb0_1 i)).WholeWords (EltTy.packing .f32)

variable [Facts₀]

abbrev win0_0 : Pipeline.Window sig grid0 :=
  Pipeline.Window.ofSpec (Memref.whole main_v0) S256x56x56.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x56x56.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x512x56x56 : Shape := ⟨4, ![32, 512, 56, 56]⟩
abbrev S56x1 : Shape := ⟨2, ![56, 1]⟩
abbrev S_ : Shape := ⟨0, ![]⟩
abbrev S56x1x1 : Shape := ⟨3, ![56, 1, 1]⟩
abbrev S32x512x56x1x56 : Shape := ⟨5, ![32, 512, 56, 1, 56]⟩
abbrev S32x512x56x56x1 : Shape := ⟨5, ![32, 512, 56, 56, 1]⟩

abbrev nBuf : Space → Nat
  | .hbm => 22
  | .vmem => 0
  | .smem => 0
  | _ => 0

abbrev bufTy : (tb : Table) → Fin (tcTables nBuf tb) → BufTy
  | .hbm, ⟨0, _⟩ => ⟨S32x512x56x56, .f32⟩
  | .hbm, ⟨1, _⟩ => ⟨S56x1, .i32⟩
  | .hbm, ⟨2, _⟩ => ⟨S56x1, .i1⟩
  | .hbm, ⟨3, _⟩ => ⟨S56x1, .i1⟩
  | .hbm, ⟨4, _⟩ => ⟨S_, .i32⟩
  | .hbm, ⟨5, _⟩ => ⟨S56x1, .i32⟩
  | .hbm, ⟨6, _⟩ => ⟨S56x1, .i32⟩
  | .hbm, ⟨7, _⟩ => ⟨S56x1, .i32⟩
  | .hbm, ⟨8, _⟩ => ⟨S56x1x1, .i32⟩
  | .hbm, ⟨9, _⟩ => ⟨S32x512x56x1x56, .f32⟩
  | .hbm, ⟨10, _⟩ => ⟨S_, .f32⟩
  | .hbm, ⟨11, _⟩ => ⟨S32x512x56x56, .f32⟩
  | .hbm, ⟨12, _⟩ => ⟨S_, .f32⟩
  | .hbm, ⟨13, _⟩ => ⟨S32x512x56x56, .f32⟩
  | .hbm, ⟨14, _⟩ => ⟨S32x512x56x56, .f32⟩
  | .hbm, ⟨15, _⟩ => ⟨S_, .i32⟩
  | .hbm, ⟨16, _⟩ => ⟨S56x1, .i32⟩
  | .hbm, ⟨17, _⟩ => ⟨S56x1, .i32⟩
  | .hbm, ⟨18, _⟩ => ⟨S56x1, .i32⟩
  | .hbm, ⟨19, _⟩ => ⟨S56x1x1, .i32⟩
  | .hbm, ⟨20, _⟩ => ⟨S32x512x56x56x1, .f32⟩
  | .hbm, ⟨21, _⟩ => ⟨S32x512x56x56, .f32⟩
  | _, _ => ⟨S32x512x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_c_2 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_3 : Ref sig .tc := ⟨.hbm, 12, rfl⟩
abbrev main_v6 : Ref sig .tc := ⟨.hbm, 13, rfl⟩
abbrev main_v7 : Ref sig .tc := ⟨.hbm, 14, rfl⟩
abbrev main_c_4 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  bcast_S_S56x1 : S_.BroadcastsInDim S56x1 (![] : Fin 0 → Fin S56x1.rank)
  bcast_S56x1_S56x1x1_0_1 : S56x1.BroadcastsInDim S56x1x1 (![0, 1] : Fin 2 → Fin S56x1x1.rank)
  reducesTo_S32x512x56x1x56_S32x512x56x56_d3 : S32x512x56x1x56.ReducesTo [3] S32x512x56x56
  h_S_ : 0 < S_.numel
  bcast_S_S32x512x56x56 : S_.BroadcastsInDim S32x512x56x56 (![] : Fin 0 → Fin S32x512x56x56.rank)
  shapeCasts_S32x512x56x56x1_S32x512x56x56 : S32x512x56x56x1.ShapeCasts S32x512x56x56
  gather_S32x512x56x56_S56x1x1_S32x512x56x1x56_014_2_n_n_2_2_32512156_wf : GatherDims.WF S32x512x56x56 S56x1x1 S32x512x56x1x56 [0, 1, 4] [2] [] [2] [] 2 ![32, 512, 1, 56]
  gather_S32x512x56x56_S56x1x1_S32x512x56x56x1_012_3_n_n_3_2_32512561_wf : GatherDims.WF S32x512x56x56 S56x1x1 S32x512x56x56x1 [0, 1, 2] [3] [] [3] [] 2 ![32, 512, 56, 1]

variable [Facts₀]

def gather_S32x512x56x56_S56x1x1_S32x512x56x1x56_014_2_n_n_2_2_32512156 : GatherDims S32x512x56x56 S56x1x1 S32x512x56x1x56 where
  offsetDims := [0, 1, 4]
  collapsedSliceDims := [2]
  operandBatchingDims := []
  startIndicesBatchingDims := []
  startIndexMap := [2]
  indexVectorDim := 2
  sliceSizes := ![32, 512, 1, 56]
  wf := gather_S32x512x56x56_S56x1x1_S32x512x56x1x56_014_2_n_n_2_2_32512156_wf
def gather_S32x512x56x56_S56x1x1_S32x512x56x56x1_012_3_n_n_3_2_32512561 : GatherDims S32x512x56x56 S56x1x1 S32x512x56x56x1 where
  offsetDims := [0, 1, 2]
  collapsedSliceDims := [3]
  operandBatchingDims := []
  startIndicesBatchingDims := []
  startIndexMap := [3]
  indexVectorDim := 2
  sliceSizes := ![32, 512, 56, 1]
  wf := gather_S32x512x56x56_S56x1x1_S32x512x56x56x1_012_3_n_n_3_2_32512561_wf

class Facts : Prop extends Facts₀ where

variable [Facts]
-- ==== Proof.KernelValue.lean ====
/-
  The kernel program read back as a value. Its @main reshapes the input [32, 512, 56, 56] to
  [16384, 56, 56], runs one pipelined region over a grid of 64 points, and reshapes the region's output
  back. At point t the body loads block t of the reshaped input (rows 256·t … 256·t + 255, whole in the
  other two axes), casts it to its own shape, and stores it whole into the output's staging buffer, which
  is written back to block t of the output array; both windows use the same index map t ↦ (t, 0, 0).
  So what a point writes back is block t of the reshaped input; the 64 blocks tile the output array, which
  therefore ends as the reshaped input; and the reshape back of a reshape is the input itself.
-/
import proofs.«168086_j56444460204139_1_alg».proof.Proof.Gen.KernelIdeal.Frame
import Idealize.ShloMosaic.Lib.Pipeline.Value
import Idealize.ShloMosaic.Lib.StableHlo.Run

set_option maxRecDepth 16384

noncomputable section

namespace Cert.KernelIdeal.CopyValue

open Cert.KernelIdeal Cert.KernelIdeal.Gen
open Idealize.ShloMosaic Idealize.ShloMosaic.TcCoe Idealize.SL.Sem Idealize.ShloMosaic.StableHlo
open Idealize.ShloMosaic.Pipeline (Dat Cfg Window)

variable {F : FTy → Type} [FloatOps F]

variable (m : (ℓ : Loc nD τ sig) → Buf (Elt F) ℓ) (ρ : Dev nD → PrngReg)

theorem origin3 : (![0, 0, 0] : Fin 3 → Nat) = fun _ => 0 := funext fun a => by fin_cases a <;> rfl

/-- The body's one payload is the loaded block itself: a cast to the same shape. -/
theorem payload_eq (x0 : Vec F S256x56x56 .f32) : k0_pay1 x0 = x0 :=
  shapeCast_self x0 shapeCasts_S256x56x56_S256x56x56

/-- So the output's staging buffer after the body holds the input block: one store, of the whole buffer. -/
theorem out_eq (x0 : Vec F S256x56x56 .f32) : out0_1 x0 = x0 := by
  unfold out0_1
  rw [View.canon_unit_zero origin3]
  simp only [View.ld_unit_zero (S := S256x56x56) origin3]
  exact payload_eq x0

/-- Both windows' index maps send point t to block (t, 0, 0). -/
theorem index_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- The region-entry contents of the reshaped input, at the output array's type (both are [16384, 56, 56]). -/
abbrev reshaped (c : Dev nD) : S16384x56x56.Idx → Elt F .f32 := V m c main_v0

/-- What point t writes back is block t of the reshaped input. -/
theorem flushed_eq (c : Dev nD) (t : Fin cfg0.N) :
    (dats m 0 c).flushed 1 t = ((cfg0.win 1).blk t).view.read (Elt F) (reshaped m c) := by
  show (cfg0.win 1).cut (grid0.coords t) ((dats m 0 c).after 1 t) = _
  rw [after0_1, out_eq]
  obtain ⟨e0, e1, e2, e3, e4, e5⟩ := index_facts t
  funext j
  show V m c main_v0 (((cfg0.win 0).blk t).view.emb j) = V m c main_v0 (((cfg0.win 1).blk t).view.emb j)
  have h : ((cfg0.win 0).blk t).view.emb j = ((cfg0.win 1).blk t).view.emb j := by
    funext a; apply Fin.ext
    match a with
    | ⟨0, _⟩ => show win0_0.index t (0 : Fin 3) * 256 + 1 * (j 0).val = win0_1.index t (0 : Fin 3) * 256 + 1 * (j 0).val; omega
    | ⟨1, _⟩ => show win0_0.index t (1 : Fin 3) * 56 + 1 * (j 1).val = win0_1.index t (1 : Fin 3) * 56 + 1 * (j 1).val; omega
    | ⟨2, _⟩ => show win0_0.index t (2 : Fin 3) * 56 + 1 * (j 2).val = win0_1.index t (2 : Fin 3) * 56 + 1 * (j 2).val; omega
  rw [h]

/-- An index of the output array is in point t's block iff each coordinate is in the block's range. -/
theorem mem_block (t : Fin cfg0.N) (i : S16384x56x56.Idx) :
    i ∈ ((cfg0.win 1).blk t).view.set ↔ ∀ a : Fin 3, win0_1.index t a * S256x56x56.size a ≤ (i a).val ∧ (i a).val < win0_1.index t a * S256x56x56.size a + S256x56x56.size a := by
  show i ∈ ((View.whole main_v1).slice (win0_1.rect t)).set ↔ _
  rw [View.set_slice_whole, Rect.mem_set_unit]
  exact Iff.rfl

/-- Every index of the output array lies in the block of the point that is its row divided by 256. -/
theorem cover (i : S16384x56x56.Idx) :
    ∃ t : Fin cfg0.N, (cfg0.win 1).flush t = true ∧ i ∈ ((cfg0.win 1).blk t).view.set := by
  have hi0 : (i 0).val < 16384 := (i 0).isLt
  have hi1 : (i 1).val < 56 := (i 1).isLt
  have hi2 : (i 2).val < 56 := (i 2).isLt
  have hN : cfg0.N = 64 := N_0
  let t : Fin cfg0.N := ⟨(i 0).val / 256, by rw [hN]; omega⟩
  obtain ⟨-, -, -, e3, e4, e5⟩ := index_facts t
  have ht : t.val = (i 0).val / 256 := rfl
  refine ⟨t, flush0_1 t, ?_⟩
  rw [mem_block]
  intro a
  match a with
  | ⟨0, _⟩ => show win0_1.index t (0 : Fin 3) * 256 ≤ (i 0).val ∧ (i 0).val < win0_1.index t (0 : Fin 3) * 256 + 256; omega
  | ⟨1, _⟩ => show win0_1.index t (1 : Fin 3) * 56 ≤ (i 1).val ∧ (i 1).val < win0_1.index t (1 : Fin 3) * 56 + 56; omega
  | ⟨2, _⟩ => show win0_1.index t (2 : Fin 3) * 56 ≤ (i 2).val ∧ (i 2).val < win0_1.index t (2 : Fin 3) * 56 + 56; omega

/-- The output array after the run is the reshaped input. -/
theorem final (c : Dev nD) : (dats m 0 c).arrAt 1 cfg0.N = reshaped m c :=
  (dats m 0 c).arrAt_eq_of_cover 1 (reshaped m c) (fun t _ => flushed_eq m c t) cover

/-- The reshaped input is the launch contents of the argument, cast to [16384, 56, 56]. -/
theorem reshaped_eq (c : Dev nD) :
    reshaped m c = shapeCast S16384x56x56 (m ((c.tc : Thread nD τ).loc main_arg0)) shapeCasts_S32x512x56x56_S16384x56x56 := by
  show StableHlo.after hostOps0 (fun b => m (c, b)) (Proc.devRef .tc main_v0) = _
  after_results
  rfl

/-- The program's result after the region's tail — the reshape back of the output array — is the argument. -/
theorem tail_result (c : Dev nD) :
    Pipeline.afterTail₀ cfgs (dats m) 0 (V0 m) [hostOps1] c main_v2 = m ((c.tc : Thread nD τ).loc main_arg0) := by
  unfold Pipeline.afterTail₀
  show StableHlo.after hostOps1 _ (Proc.devRef .tc main_v2) = _
  after_results
  have e : Pipeline.withArrays spec0 c (V0 m c) (fun w => (dats m 0 c).arrAt w cfg0.N) (Proc.devRef .tc main_v1)
      = shapeCast S16384x56x56 (m ((c.tc : Thread nD τ).loc main_arg0)) shapeCasts_S32x512x56x56_S16384x56x56 :=
    ((Pipeline.withArrays_arr spec0 launch0.win.arr_inj c _ _ 1).trans (final m c)).trans (reshaped_eq m c)
  rw [e]
  exact shapeCast_shapeCast _ _ _

/-- The kernel program's run, read: every weakly fair execution terminates with the result buffer at the
    argument's launch contents and the argument unchanged. -/
theorem run : θ_run defs (onTc (τ := τ) (main (F := F))) ⟨m, fun _ => 0, ρ⟩ fun r => ∀ c : Dev nD,
      r.2.mem ((c.tc : Thread nD τ).loc main_v2) = m ((c.tc : Thread nD τ).loc main_arg0)
      ∧ r.2.mem ((c.tc : Thread nD τ).loc main_arg0) = m ((c.tc : Thread nD τ).loc main_arg0) :=
  (θ_run defs _ _).mono (fun _ h c =>
      ⟨((h c).2 main_v2 (Pipeline.mem_restRefs_of main_v2 (by decide) (by decide))).trans (tail_result m c),
       ((h c).2 main_arg0 (Pipeline.mem_restRefs_of main_arg0 (by decide) (by decide))).trans (W_main_arg0 m (dats m) c)⟩)
    (run_main m ρ)

end Cert.KernelIdeal.CopyValue

end
-- ==== Proof.RefRun.lean ====
/-
  The reference program read back as a value. Its @main is twenty-one host operations in a straight line:
  a column of the start indices 0 … 55, an add of 56 and a select on a constant-false mask that leave
  that column as it was, a gather of the input along its height axis at those starts (a window of one
  row each), a sum over that window's single element from the initial value zero, a division by the
  constant one, the same index column built a second time, a gather along the width axis at those
  starts, and a reshape that drops the trailing unit axis.
  Here: the list of the operations, that @main is their sequence, and the run — every weakly fair
  execution terminates with the result buffer at the operations' composed term of the argument
  (`refOut`) and the argument unchanged.
-/
import proofs.«168086_j56444460204139_1_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- @main's 21 operations, in order. -/
abbrev ops : List (HloOp τ sig (Elt F)) :=
  [ nullary main_c (fun i => lit0 (S56x1.rowMajor i)),
    nullary main_c_0 (constantI S56x1 1 0#1),
    nullary main_c_1 (constantI S56x1 1 0#1),
    nullary main_c_2 (constantI S_ 32 56#32),
    unary main_c_2 main_v0 (broadcastInDim S56x1 ![] bcast_S_S56x1 : (⟨S_, .i32⟩ : BufTy).Contents (Elt F) → (⟨S56x1, .i32⟩ : BufTy).Contents (Elt F)),
    binary main_c main_v0 main_v1 (addi : (⟨S56x1, .i32⟩ : BufTy).Contents (Elt F) → (⟨S56x1, .i32⟩ : BufTy).Contents (Elt F) → (⟨S56x1, .i32⟩ : BufTy).Contents (Elt F)),
    ternary main_c_0 main_v1 main_c main_v2 (select : (⟨S56x1, .i1⟩ : BufTy).Contents (Elt F) → (⟨S56x1, .i32⟩ : BufTy).Contents (Elt F) → (⟨S56x1, .i32⟩ : BufTy).Contents (Elt F) → (⟨S56x1, .i32⟩ : BufTy).Contents (Elt F)),
    unary main_v2 main_v3 (broadcastInDim S56x1x1 ![0, 1] bcast_S56x1_S56x1x1_0_1 : (⟨S56x1, .i32⟩ : BufTy).Contents (Elt F) → (⟨S56x1x1, .i32⟩ : BufTy).Contents (Elt F)),
    binary main_arg0 main_v3 main_v4 ((fun x i => Host.gather gather_S32x512x56x56_S56x1x1_S32x512x56x1x56_014_2_n_n_2_2_32512156 x i) : (⟨S32x512x56x56, .f32⟩ : BufTy).Contents (Elt F) → (⟨S56x1x1, .i32⟩ : BufTy).Contents (Elt F) → (⟨S32x512x56x1x56, .f32⟩ : BufTy).Contents (Elt F)),
    nullary main_cst (constant S_ .f32 0x00000000#32),
    binary main_v4 main_cst main_v5 ((fun x v => Host.reduceAdd x v reducesTo_S32x512x56x1x56_S32x512x56x56_d3 h_S_) : (⟨S32x512x56x1x56, .f32⟩ : BufTy).Contents (Elt F) → (⟨S_, .f32⟩ : BufTy).Contents (Elt F) → (⟨S32x512x56x56, .f32⟩ : BufTy).Contents (Elt F)),
    nullary main_cst_3 (constant S_ .f32 0x3F800000#32),
    unary main_cst_3 main_v6 (broadcastInDim S32x512x56x56 ![] bcast_S_S32x512x56x56 : (⟨S_, .f32⟩ : BufTy).Contents (Elt F) → (⟨S32x512x56x56, .f32⟩ : BufTy).Contents (Elt F)),
    binary main_v5 main_v6 main_v7 (Host.divf : (⟨S32x512x56x56, .f32⟩ : BufTy).Contents (Elt F) → (⟨S32x512x56x56, .f32⟩ : BufTy).Contents (Elt F) → (⟨S32x512x56x56, .f32⟩ : BufTy).Contents (Elt F)),
    nullary main_c_4 (constantI S_ 32 56#32),
    unary main_c_4 main_v8 (broadcastInDim S56x1 ![] bcast_S_S56x1 : (⟨S_, .i32⟩ : BufTy).Contents (Elt F) → (⟨S56x1, .i32⟩ : BufTy).Contents (Elt F)),
    binary main_c main_v8 main_v9 (addi : (⟨S56x1, .i32⟩ : BufTy).Contents (Elt F) → (⟨S56x1, .i32⟩ : BufTy).Contents (Elt F) → (⟨S56x1, .i32⟩ : BufTy).Contents (Elt F)),
    ternary main_c_1 main_v9 main_c main_v10 (select : (⟨S56x1, .i1⟩ : BufTy).Contents (Elt F) → (⟨S56x1, .i32⟩ : BufTy).Contents (Elt F) → (⟨S56x1, .i32⟩ : BufTy).Contents (Elt F) → (⟨S56x1, .i32⟩ : BufTy).Contents (Elt F)),
    unary main_v10 main_v11 (broadcastInDim S56x1x1 ![0, 1] bcast_S56x1_S56x1x1_0_1 : (⟨S56x1, .i32⟩ : BufTy).Contents (Elt F) → (⟨S56x1x1, .i32⟩ : BufTy).Contents (Elt F)),
    binary main_v7 main_v11 main_v12 ((fun x i => Host.gather gather_S32x512x56x56_S56x1x1_S32x512x56x56x1_012_3_n_n_3_2_32512561 x i) : (⟨S32x512x56x56, .f32⟩ : BufTy).Contents (Elt F) → (⟨S56x1x1, .i32⟩ : BufTy).Contents (Elt F) → (⟨S32x512x56x56x1, .f32⟩ : BufTy).Contents (Elt F)),
    reshape main_v12 main_v13 rfl shapeCasts_S32x512x56x56x1_S32x512x56x56 ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., nullary_bufs_sub .., nullary_bufs_sub .., unary_bufs_sub .., binary_bufs_sub .., ternary_bufs_sub .., unary_bufs_sub .., binary_bufs_sub .., nullary_bufs_sub .., binary_bufs_sub .., nullary_bufs_sub .., unary_bufs_sub .., binary_bufs_sub .., nullary_bufs_sub .., unary_bufs_sub .., binary_bufs_sub .., ternary_bufs_sub .., unary_bufs_sub .., binary_bufs_sub .., reshape_bufs_sub ..⟩

/-- The column of start indices as @main builds it (twice, with the same text): the literal column
    0 … 55, kept by a select whose mask is constant false over the column plus 56, then given a trailing
    unit axis (the index vector's). -/
def startIdx : IVec S56x1x1 32 :=
  broadcastInDim S56x1x1 ![0, 1] bcast_S56x1_S56x1x1_0_1
    (select (constantI S56x1 1 0#1)
      (addi (fun i => lit0 (S56x1.rowMajor i)) (broadcastInDim S56x1 ![] bcast_S_S56x1 (constantI S_ 32 56#32)))
      (fun i => lit0 (S56x1.rowMajor i)))

/-- The mean over the height window: the gather along the height axis, its one-element sum from zero,
    the division by one. -/
def meanH (x : (⟨S32x512x56x56, .f32⟩ : BufTy).Contents (Elt F)) : (⟨S32x512x56x56, .f32⟩ : BufTy).Contents (Elt F) :=
  Host.divf
    (Host.reduceAdd (Host.gather gather_S32x512x56x56_S56x1x1_S32x512x56x1x56_014_2_n_n_2_2_32512156 x startIdx)
      (constant S_ .f32 0x00000000#32) reducesTo_S32x512x56x1x56_S32x512x56x56_d3 h_S_)
    (broadcastInDim S32x512x56x56 ![] bcast_S_S32x512x56x56 (constant S_ .f32 0x3F800000#32))

/-- The reference's result as one term of its argument: the width gather of the height mean, reshaped. -/
def refOut (x : (⟨S32x512x56x56, .f32⟩ : BufTy).Contents (Elt F)) : (⟨S32x512x56x56, .f32⟩ : BufTy).Contents (Elt F) :=
  shapeCast S32x512x56x56
    (Host.gather gather_S32x512x56x56_S56x1x1_S32x512x56x56x1_012_3_n_n_3_2_32512561 (meanH x) startIdx)
    shapeCasts_S32x512x56x56x1_S32x512x56x56

/-- On the one device, for any float values, from any memory with zero counters: every weakly fair
    execution of @main terminates with its result at `refOut` of the argument and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v13) = refOut (m ((c.tc : Thread nD τ).loc main_arg0))
      ∧ r.2.mem ((c.tc : Thread nD τ).loc main_arg0) = m ((c.tc : Thread nD τ).loc main_arg0) :=
  (θ_run defs _ _).mono (fun _ h c => ⟨(h c main_v13).trans (by after_results; rfl),
      (h c main_arg0).trans (by after_results)⟩)
    (run_seq scopedRefs_eq scopedSems_eq defs main (fun _ => ops) main_eq (fun _ => ops_sub) m ρ)

end Cert.ReferenceIdeal.HostRun

end
-- ==== Proof.RefValue.lean ====
/-
  The reference's result term is its argument, index by index, on the extended reals.
  At (b, c, h, w): the reshape reads the width gather at (b, c, h, w, 0); the width gather reads the height
  mean at column start[w], where start[w] is entry w of the literal column 0 … 55 (the select's mask is
  constant false), read signed and clamped into 0 … 55, which is w itself; the height mean at (b, c, h, w)
  is (0 + g) / 1 with g the height gather's one window element at (b, c, h, 0, w), which is the argument at
  row start[h] = h. Zero plus a value is the value and a value over one is the value, on every extended
  real, so no finiteness is used.
-/
import proofs.«168086_j56444460204139_1_alg».proof.Proof.RefRun
import Idealize.ShloMosaic.Lib.ValueIdx
import Idealize.ShloMosaic.Lib.Pipeline.Value
import Idealize.ShloMosaic.PureOps.Ideal.Laws

set_option maxRecDepth 16384

noncomputable section

namespace Cert.ReferenceIdeal.RefValue

open Cert.ReferenceIdeal Cert.ReferenceIdeal.Gen Cert.ReferenceIdeal.HostRun
open Idealize.ShloMosaic Idealize.ShloMosaic.ValueIdx

/-! ## The start indices -/

/-- Entry k of the literal column, read as a signed word and clamped to the last position 55, is k. -/
theorem start_clamped : ∀ k : Fin 56, min (lit0 k).toInt.toNat 55 = k.val := by decide

/-- The start-index array at (p, 0, 0) is entry p of the literal column: the broadcast adds a unit axis,
    the select's mask is zero everywhere, and the row-major position of (p, 0) in a [56, 1] column is p. -/
theorem startIdx_apply (p : Fin 56) (q z : Fin 1) : startIdx (ix3 p q z) = lit0 p := by
  have hq : q.val = 0 := by have := q.isLt; omega
  unfold startIdx
  rw [broadcastInDim_apply (![0, 1]) bcast_S56x1_S56x1x1_0_1 _ (ix3 p q z) (ix2 p q)
    (fun a => by match a with | ⟨0, _⟩ => rfl | ⟨1, _⟩ => exact hq)]
  rw [select_apply]
  show Scalar.select 0#1 _ _ = _
  rw [select_zero]
  refine congrArg lit0 (Fin.ext ?_)
  rw [Shape.rowMajor_val_two]
  show p.val * 1 + q.val = p.val
  omega

/-- So the start index at (p, 0, 0), signed and clamped, is p. -/
theorem start_at (p : Fin 56) (q : Fin 1) : min (startIdx (ix3 p q 0)).toInt.toNat 55 = p.val := by
  rw [startIdx_apply]; exact start_clamped p

/-! ## The two gathers at explicit coordinates -/

/-- The height gather's dimension numbers: operand axis 2 collapsed and start-indexed; the result's offset axes
    0, 1, 4 read operand axes 0, 1, 3; its batch axes 2, 3 read the start indices' axes 0, 1. -/
abbrev dH : GatherDims S32x512x56x56 S56x1x1 S32x512x56x1x56 :=
  gather_S32x512x56x56_S56x1x1_S32x512x56x1x56_014_2_n_n_2_2_32512156

/-- The width gather's: operand axis 3 collapsed and start-indexed; offset axes 0, 1, 2 read operand axes 0, 1, 2;
    batch axes 3, 4 read the start indices' axes 0, 1. -/
abbrev dW : GatherDims S32x512x56x56 S56x1x1 S32x512x56x56x1 :=
  gather_S32x512x56x56_S56x1x1_S32x512x56x56x1_012_3_n_n_3_2_32512561

/-- On an operand axis that is kept (neither collapsed nor start-indexed) the operand coordinate is the result's
    coordinate on the matching offset axis: the start and the batch coordinate are zero there. -/
theorem dH_kept (j : S32x512x56x1x56.Idx) (idx : IVec S56x1x1 32) (a : Fin 4) (n : Nat)
    (hs : a ∉ dH.startIndexMap) (ho : dH.offCoord j a = n) :
    dH.start j idx a + dH.batchCoord j a + dH.offCoord j a = n := by
  rw [GatherDims.batchCoord_eq_zero _ _ _ List.not_mem_nil, ho]
  unfold GatherDims.start
  rw [dif_neg hs]
  omega

theorem dW_kept (j : S32x512x56x56x1.Idx) (idx : IVec S56x1x1 32) (a : Fin 4) (n : Nat)
    (hs : a ∉ dW.startIndexMap) (ho : dW.offCoord j a = n) :
    dW.start j idx a + dW.batchCoord j a + dW.offCoord j a = n := by
  rw [GatherDims.batchCoord_eq_zero _ _ _ List.not_mem_nil, ho]
  unfold GatherDims.start
  rw [dif_neg hs]
  omega

/-- The gather along the height axis at (b, c, p, q, w) is the operand at (b, c, r, w) with r the start index of
    (p, q) read signed and clamped into 0 … 55. -/
theorem gatherH_apply {α : Type} (x : S32x512x56x56.Idx → α) (idx : IVec S56x1x1 32)
    (b : Fin 32) (c : Fin 512) (p : Fin 56) (q : Fin 1) (w : Fin 56) (r : Fin 56)
    (hr : min (idx (ix3 p q 0)).toInt.toNat 55 = r.val) :
    Host.gather dH x idx (ix5 b c p q w) = x (ix4 b c r w) := by
  unfold Host.gather
  refine congrArg x (funext fun a => Fin.ext ?_)
  match a with
  | ⟨0, _⟩ =>
    exact dH_kept (ix5 b c p q w) idx (0 : Fin 4) b.val (by decide)
      (by unfold GatherDims.offCoord; rw [dif_pos (by decide)]; rfl)
  | ⟨1, _⟩ =>
    exact dH_kept (ix5 b c p q w) idx (1 : Fin 4) c.val (by decide)
      (by unfold GatherDims.offCoord; rw [dif_pos (by decide)]; rfl)
  | ⟨3, _⟩ =>
    exact dH_kept (ix5 b c p q w) idx (3 : Fin 4) w.val (by decide)
      (by unfold GatherDims.offCoord; rw [dif_pos (by decide)]; rfl)
  | ⟨2, _⟩ =>
    show dH.start (ix5 b c p q w) idx (2 : Fin 4) + dH.batchCoord (ix5 b c p q w) (2 : Fin 4)
      + dH.offCoord (ix5 b c p q w) (2 : Fin 4) = r.val
    rw [GatherDims.batchCoord_eq_zero _ _ _ List.not_mem_nil, GatherDims.offCoord_eq_zero _ _ _ (by decide)]
    simp only [Nat.add_zero]
    unfold GatherDims.start
    rw [dif_pos (by decide)]
    have hsi : ∀ k, dH.siIdx (ix5 b c p q w) k = ix3 p q 0 := by
      intro k
      have hk : k.val = 0 := by have : k.val < 1 := k.isLt; omega
      funext d; refine Fin.ext ?_
      match d with
      | ⟨0, _⟩ => rfl
      | ⟨1, _⟩ => rfl
      | ⟨2, _⟩ => exact hk
    rw [hsi]
    exact hr

/-- The gather along the width axis at (b, c, h, p, q) is the operand at (b, c, h, r) with r the start index of
    (p, q) read signed and clamped into 0 … 55. -/
theorem gatherW_apply {α : Type} (x : S32x512x56x56.Idx → α) (idx : IVec S56x1x1 32)
    (b : Fin 32) (c : Fin 512) (h : Fin 56) (p : Fin 56) (q : Fin 1) (r : Fin 56)
    (hr : min (idx (ix3 p q 0)).toInt.toNat 55 = r.val) :
    Host.gather dW x idx (ix5 b c h p q) = x (ix4 b c h r) := by
  unfold Host.gather
  refine congrArg x (funext fun a => Fin.ext ?_)
  match a with
  | ⟨0, _⟩ =>
    exact dW_kept (ix5 b c h p q) idx (0 : Fin 4) b.val (by decide)
      (by unfold GatherDims.offCoord; rw [dif_pos (by decide)]; rfl)
  | ⟨1, _⟩ =>
    exact dW_kept (ix5 b c h p q) idx (1 : Fin 4) c.val (by decide)
      (by unfold GatherDims.offCoord; rw [dif_pos (by decide)]; rfl)
  | ⟨2, _⟩ =>
    exact dW_kept (ix5 b c h p q) idx (2 : Fin 4) h.val (by decide)
      (by unfold GatherDims.offCoord; rw [dif_pos (by decide)]; rfl)
  | ⟨3, _⟩ =>
    show dW.start (ix5 b c h p q) idx (3 : Fin 4) + dW.batchCoord (ix5 b c h p q) (3 : Fin 4)
      + dW.offCoord (ix5 b c h p q) (3 : Fin 4) = r.val
    rw [GatherDims.batchCoord_eq_zero _ _ _ List.not_mem_nil, GatherDims.offCoord_eq_zero _ _ _ (by decide)]
    simp only [Nat.add_zero]
    unfold GatherDims.start
    rw [dif_pos (by decide)]
    have hsi : ∀ k, dW.siIdx (ix5 b c h p q) k = ix3 p q 0 := by
      intro k
      have hk : k.val = 0 := by have : k.val < 1 := k.isLt; omega
      funext d; refine Fin.ext ?_
      match d with
      | ⟨0, _⟩ => rfl
      | ⟨1, _⟩ => rfl
      | ⟨2, _⟩ => exact hk
    rw [hsi]
    exact hr

/-! ## The two literals and the two laws -/

/-- The word of 1.0 denotes the extended real one. -/
theorem ofBits_one : Ideal.ofBits .f32 0x3F800000#32 = 1 := by
  simp [Ideal.ofBits, Ideal.ieee, -EReal.coe_mul]; norm_num

/-- A quotient by one is the dividend, at the infinities too. -/
theorem div_one (v : EReal) : Ideal.div v 1 = v := by
  rw [← EReal.coe_one, Ideal.div_coe one_ne_zero, one_div, inv_one, EReal.coe_one, mul_one]

/-! ## The height mean and the result -/

/-- The height mean is its argument: the window along the height axis has the one element at row start[h] = h,
    summed from zero and divided by one. -/
theorem meanH_apply (x : S32x512x56x56.Idx → EReal) (b : Fin 32) (c : Fin 512) (h w : Fin 56) :
    meanH (F := Ideal) x (ix4 b c h w) = x (ix4 b c h w) := by
  have hred : S32x512x56x1x56.Reduces [3] S32x512x56x56 := by decide
  have hl : hred.lift (ix4 b c h w) (0 : Fin 1) = ix5 b c h 0 w := by
    funext a; refine Fin.ext ?_
    match a with
    | ⟨0, _⟩ => rfl
    | ⟨1, _⟩ => rfl
    | ⟨2, _⟩ => rfl
    | ⟨3, _⟩ => rfl
    | ⟨4, _⟩ => rfl
  unfold meanH
  show Ideal.div
      (Ideal.hostReduceAdd reducesTo_S32x512x56x1x56_S32x512x56x56_d3
        (Host.gather gather_S32x512x56x56_S56x1x1_S32x512x56x1x56_014_2_n_n_2_2_32512156 x startIdx)
        (Ideal.ofBits .f32 0x00000000#32) (ix4 b c h w))
      (broadcastInDim S32x512x56x56 ![] bcast_S_S32x512x56x56 (constant (F := Ideal) S_ .f32 0x3F800000#32) (ix4 b c h w)) = _
  rw [broadcastInDim_apply (![]) bcast_S_S32x512x56x56 _ (ix4 b c h w) ix0 (fun a => a.elim0)]
  rw [constant_apply, ofBits_one, div_one]
  rw [Ideal.hostReduceAdd_single reducesTo_S32x512x56x1x56_S32x512x56x56_d3 hred]
  show Ideal.ofBits .f32 0x00000000#32 + ∑ k : Fin 1, _ = _
  rw [Fin.sum_univ_one, Ideal.ofBits_zero_f32, zero_add, hl]
  exact gatherH_apply x startIdx b c h 0 w h (start_at h 0)

/-- The reference's result term is its argument. -/
theorem refOut_eq (x : S32x512x56x56.Idx → EReal) : refOut (F := Ideal) x = x := by
  funext j
  obtain ⟨b, c, h, w, rfl⟩ : ∃ (b : Fin 32) (c : Fin 512) (h w : Fin 56), j = ix4 b c h w :=
    ⟨j 0, j 1, j 2, j 3, eq_ix4 j⟩
  unfold refOut
  rw [shapeCast_apply _ shapeCasts_S32x512x56x56x1_S32x512x56x56 (ix4 b c h w) (ix5 b c h w 0) (by
    rw [Shape.rowMajor_val_five, Shape.rowMajor_val_four]
    show (((b.val * 512 + c.val) * 56 + h.val) * 56 + w.val) * 1 + 0 = ((b.val * 512 + c.val) * 56 + h.val) * 56 + w.val
    omega)]
  rw [gatherW_apply (meanH (F := Ideal) x) startIdx b c h w 0 w (start_at w 0)]
  exact meanH_apply x b c h w

end Cert.ReferenceIdeal.RefValue

end
-- ==== Proof.lean ====
/-
  Kernel and reference are both the identity on a float array x of shape [32, 512, 56, 56].

  The kernel program reshapes x to [16384, 56, 56], copies it block by block (64 blocks of 256 rows, each
  loaded, cast to its own shape and stored whole) into an output array of the same shape, and reshapes
  that back: the blocks tile the array, so the output array ends as the reshaped input, and the reshape
  back returns x (Proof/KernelValue.lean).

  The reference is an average pooling whose window is a single element at these extents: it gathers row
  start[h] along the height axis with start the literal column 0 … 55, sums the one-element window from
  zero, divides by one, gathers column start[w] along the width axis, and drops a trailing unit axis.
  Each start index, read signed and clamped into the axis, is its own position, 0 + v = v and v / 1 = v on
  every extended real, so the result at (b, c, h, w) is x at (b, c, h, w) (Proof/RefRun.lean: the run;
  Proof/RefValue.lean: the term at an index).

  Both results are therefore the argument's launch contents, which the two programs' memories agree on.
  The finiteness precondition is not used; the idealization rewrote nothing, so its conjunct is trivial.
-/
import proofs.«168086_j56444460204139_1_alg».proof.Defs
import proofs.«168086_j56444460204139_1_alg».proof.Proof.Gen.Kernel
import proofs.«168086_j56444460204139_1_alg».proof.Proof.Gen.Kernel.Skeleton
import proofs.«168086_j56444460204139_1_alg».proof.Proof.Gen.Kernel.Launch
import proofs.«168086_j56444460204139_1_alg».proof.Proof.Gen.Kernel.Points
import proofs.«168086_j56444460204139_1_alg».proof.Proof.Gen.Kernel.Frame
import proofs.«168086_j56444460204139_1_alg».proof.Proof.Gen.KernelIdeal
import proofs.«168086_j56444460204139_1_alg».proof.Proof.Gen.KernelIdeal.Skeleton
import proofs.«168086_j56444460204139_1_alg».proof.Proof.Gen.KernelIdeal.Launch
import proofs.«168086_j56444460204139_1_alg».proof.Proof.Gen.KernelIdeal.Points
import proofs.«168086_j56444460204139_1_alg».proof.Proof.Gen.KernelIdeal.Frame
import proofs.«168086_j56444460204139_1_alg».proof.Proof.Gen.ReferenceIdeal
import proofs.«168086_j56444460204139_1_alg».proof.Proof.Gen.Pre_finite_inputs
import proofs.«168086_j56444460204139_1_alg».proof.Proof.KernelValue
import proofs.«168086_j56444460204139_1_alg».proof.Proof.RefRun
import proofs.«168086_j56444460204139_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and keeps its argument. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and keeps its argument: its run, with the result's value dropped. -/
theorem frame_referenceIdeal : Cert.frame_ReferenceIdeal := fun m ρ _ =>
  (θ_run Cert.ReferenceIdeal.defs _ _).mono (fun _ h c => (h c).2) (Cert.ReferenceIdeal.HostRun.run (F := Ideal) m ρ)

/-- The idealization rewrote no operation. -/
theorem preserves : Cert.preserves_Kernel_KernelIdeal := trivial

/-- Both programs end with their result at the argument's launch contents: the kernel's by its copy through the
    tiled blocks, the reference's because its result term is its argument index by index; the two memories agree
    on the argument. -/
theorem algebraic : Cert.algebraic_KernelIdeal_ReferenceIdeal := by
  intro m ρ m' ρ' _ hagree
  refine ⟨fun c => m ((c.tc : Thread Cert.KernelIdeal.nD Cert.KernelIdeal.τ).loc Cert.KernelIdeal.main_arg0),
    Cert.KernelIdeal.CopyValue.run (F := Ideal) m ρ, ?_⟩
  refine (θ_run Cert.ReferenceIdeal.defs _ _).mono (fun _ h c => ⟨(h c).1.trans ?_, (h c).2⟩)
    (Cert.ReferenceIdeal.HostRun.run (F := Ideal) m' ρ')
  rw [Cert.ReferenceIdeal.RefValue.refOut_eq]
  exact hagree c

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
